-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S3x1024x1024 : Shape := ⟨3, ![3, 1024, 1024]⟩
abbrev S3x1024 : Shape := ⟨2, ![3, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024x1024 : S_.BroadcastsInDim S3x1024x1024 (![] : Fin 0 → Fin S3x1024x1024.rank)
  reducesTo_S3x1024x1024_S_d0_1_2 : S3x1024x1024.ReducesTo [0, 1, 2] S_
  bcast_S_S3x1024 : S_.BroadcastsInDim S3x1024 (![] : Fin 0 → Fin S3x1024.rank)
  reducesTo_S3x1024_S_d0_1 : S3x1024.ReducesTo [0, 1] S_

variable [Facts]

def fn_part1 {F : FTy → Type} [FloatOps F] (main_arg4 : FVec F S3x1024 .f32) (main_arg5 : FVec F S3x1024 .f32) (main_v13 : IVec S_ 1) (main_v16 : IVec S3x1024x1024 1) : IVec S_ 1 :=
  let main_c_5 : IVec S_ 1 := constantI S_ 1 1#1
  let main_v17 : IVec S_ 1 := (fun x v => Host.reduce IntOp.andi x v reducesTo_S3x1024x1024_S_d0_1_2 h_S_) main_v16 main_c_5
  let main_v18 : IVec S_ 1 := andi main_v13 main_v17
  let main_v19 : FVec F S3x1024 .f32 := Host.absf main_arg4
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  let main_v24 : FVec F S3x1024 .f32 := Host.absf main_arg5
  let main_cst_8 : FVec F S_ .f32 := constant S_ .f32 0x7F800000#32
  let main_v25 : FVec F S3x1024 .f32 := broadcastInDim S3x1024 ![] bcast_S_S3x1024 main_cst_8
  let main_v26 : IVec S3x1024 1 := cmpf .olt main_v24 main_v25
  let main_c_9 : IVec S_ 1 := constantI S_ 1 1#1
  let main_v27 : IVec S_ 1 := (fun x v => Host.reduce IntOp.andi x v reducesTo_S3x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S3x1024x1024 .f32) (main_arg3 : FVec F S3x1024x1024 .f32) (main_arg4 : FVec F S3x1024 .f32) (main_arg5 : FVec F S3x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S3x1024x1024 .f32 := Host.absf main_arg2
  let main_cst_2 : FVec F S_ .f32 := constant S_ .f32 0x7F800000#32
  let main_v10 : FVec F S3x1024x1024 .f32 := broadcastInDim S3x1024x1024 ![] bcast_S_S3x1024x1024 main_cst_2
  let main_v11 : IVec S3x1024x1024 1 := cmpf .olt main_v9 main_v10
  let main_c_3 : IVec S_ 1 := constantI S_ 1 1#1
  let main_v12 : IVec S_ 1 := (fun x v => Host.reduce IntOp.andi x v reducesTo_S3x1024x1024_S_d0_1_2 h_S_) main_v11 main_c_3
  let main_v13 : IVec S_ 1 := andi main_v8 main_v12
  let main_v14 : FVec F S3x1024x1024 .f32 := Host.absf main_arg3
  let main_cst_4 : FVec F S_ .f32 := constant S_ .f32 0x7F800000#32
  let main_v15 : FVec F S3x1024x1024 .f32 := broadcastInDim S3x1024x1024 ![] bcast_S_S3x1024x1024 main_cst_4
  let main_v16 : IVec S3x1024x1024 1 := cmpf .olt main_v14 main_v15
  fn_part1 (F := F) main_arg4 main_arg5 main_v13 main_v16
-- ==== Kernel.lean ====
abbrev S4096x1024 : Shape := ⟨2, ![4096, 1024]⟩
abbrev S3x1024x1024 : Shape := ⟨3, ![3, 1024, 1024]⟩
abbrev S3x1024 : Shape := ⟨2, ![3, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3x1024x1024, .f32⟩
  | .hbm, ⟨3, _⟩ => ⟨S3x1024x1024, .f32⟩
  | .hbm, ⟨4, _⟩ => ⟨S3x1024, .f32⟩
  | .hbm, ⟨5, _⟩ => ⟨S3x1024, .f32⟩
  | .hbm, ⟨6, _⟩ => ⟨S3x1024x1024, .bf16⟩
  | .hbm, ⟨7, _⟩ => ⟨S3x1024x1024, .bf16⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x1024x1024, .bf16⟩
  | .local _ .vmem, ⟨5, _⟩ => ⟨S3x1024x1024, .bf16⟩
  | .local _ .vmem, ⟨6, _⟩ => ⟨S3x1024, .f32⟩
  | .local _ .vmem, ⟨7, _⟩ => ⟨S3x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S3x1024x1024_S1x1024x1024_0_0_0 : ∀ a, (![0, 0, 0] : Fin 3 → Nat) a + S1x1024x1024.size a ≤ S3x1024x1024.size a
  h_S1x1024x1024 : 0 < S1x1024x1024.numel
  shapeCasts_S1x1024x1024_S1024x1024 : S1x1024x1024.ShapeCasts S1024x1024
  inb_S3x1024x1024_S1x1024x1024_1_0_0 : ∀ a, (![1, 0, 0] : Fin 3 → Nat) a + S1x1024x1024.size a ≤ S3x1024x1024.size a
  inb_S3x1024x1024_S1x1024x1024_2_0_0 : ∀ a, (![2, 0, 0] : Fin 3 → Nat) a + S1x1024x1024.size a ≤ S3x1024x1024.size a
  inb_S3x1024_S1x1024_0_0 : ∀ a, (![0, 0] : Fin 2 → Nat) a + S1x1024.size a ≤ S3x1024.size a
  h_S1x1024 : 0 < S1x1024.numel
  shapeCasts_S1x1024_S1024 : S1x1024.ShapeCasts S1024
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  shapeCasts_S1024_S1x1024 : S1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1024x1024.size a ≤ S3x1024x1024.size a
  hwx0_2 : ∀ i : grid0.Coords, EltTy.bits .bf16 = 32 ∨ (Rect.block (s := S3x1024x1024) S3x1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024x1024.size a ≤ S3x1024x1024.size a
  hwx0_3 : ∀ i : grid0.Coords, EltTy.bits .bf16 = 32 ∨ (Rect.block (s := S3x1024x1024) S3x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1024.size a ≤ S3x1024.size a
  hwx0_4 : ∀ i : grid0.Coords, EltTy.bits .f32 = 32 ∨ (Rect.block (s := S3x1024) S3x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1024.size a ≤ S3x1024.size a
  hwx0_5 : ∀ i : grid0.Coords, EltTy.bits .f32 = 32 ∨ (Rect.block (s := S3x1024) S3x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S3x1024x1024 : Shape := ⟨3, ![3, 1024, 1024]⟩
abbrev S3x1024 : Shape := ⟨2, ![3, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩

abbrev nBuf : Space → Nat
  | .hbm => 174
  | .vmem => 0
  | .smem => 0
  | _ => 0

abbrev hbmTy0_0 (i : Nat) : BufTy := match i % 128 with
  | 0 => ⟨S4096x1024, .f32⟩
  | 1 => ⟨S4096x1024, .f32⟩
  | 2 => ⟨S3x1024x1024, .f32⟩
  | 3 => ⟨S3x1024x1024, .f32⟩
  | 4 => ⟨S3x1024, .f32⟩
  | 5 => ⟨S3x1024, .f32⟩
  | 6 => ⟨S1x1024x1024, .f32⟩
  | 7 => ⟨S1024x1024, .f32⟩
  | 8 => ⟨S4096x1024, .f32⟩
  | 9 => ⟨S1x1024, .f32⟩
  | 10 => ⟨S1024, .f32⟩
  | 11 => ⟨S1x1024, .f32⟩
  | 12 => ⟨S4096x1024, .f32⟩
  | 13 => ⟨S4096x1024, .f32⟩
  | 14 => ⟨S1x1024x1024, .f32⟩
  | 15 => ⟨S1024x1024, .f32⟩
  | 16 => ⟨S4096x1024, .f32⟩
  | 17 => ⟨S1x1024, .f32⟩
  | 18 => ⟨S1024, .f32⟩
  | 19 => ⟨S1x1024, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S_, .f32⟩
  | 29 => ⟨S_, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S1x1024x1024, .f32⟩
  | 51 => ⟨S1024x1024, .f32⟩
  | 52 => ⟨S4096x1024, .f32⟩
  | 53 => ⟨S1x1024, .f32⟩
  | 54 => ⟨S1024, .f32⟩
  | 55 => ⟨S1x1024, .f32⟩
  | 56 => ⟨S4096x1024, .f32⟩
  | 57 => ⟨S4096x1024, .f32⟩
  | 58 => ⟨S1x1024x1024, .f32⟩
  | 59 => ⟨S1024x1024, .f32⟩
  | 60 => ⟨S4096x1024, .f32⟩
  | 61 => ⟨S1x1024, .f32⟩
  | 62 => ⟨S1024, .f32⟩
  | 63 => ⟨S1x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S4096x1024, .f32⟩
  | 71 => ⟨S_, .f32⟩
  | 72 => ⟨S_, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S1x1024x1024, .f32⟩
  | 95 => ⟨S1024x1024, .f32⟩
  | 96 => ⟨S4096x1024, .f32⟩
  | 97 => ⟨S1x1024, .f32⟩
  | 98 => ⟨S1024, .f32⟩
  | 99 => ⟨S1x1024, .f32⟩
  | 100 => ⟨S4096x1024, .f32⟩
  | 101 => ⟨S4096x1024, .f32⟩
  | 102 => ⟨S1x1024x1024, .f32⟩
  | 103 => ⟨S1024x1024, .f32⟩
  | 104 => ⟨S4096x1024, .f32⟩
  | 105 => ⟨S1x1024, .f32⟩
  | 106 => ⟨S1024, .f32⟩
  | 107 => ⟨S1x1024, .f32⟩
  | 108 => ⟨S4096x1024, .f32⟩
  | 109 => ⟨S4096x1024, .f32⟩
  | 110 => ⟨S_, .f32⟩
  | 111 => ⟨S4096x1024, .f32⟩
  | 112 => ⟨S4096x1024, .f32⟩
  | 113 => ⟨S4096x1024, .f32⟩
  | 114 => ⟨S_, .f32⟩
  | 115 => ⟨S_, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S_, .f32⟩
  | 1 => ⟨S_, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S_, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S_, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S_, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_cst_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_cst_15 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_17 : Ref sig .tc := ⟨.hbm, 128, rfl⟩
abbrev main_cst_18 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_v89 : Ref sig .tc := ⟨.hbm, 135, rfl⟩
abbrev main_cst_19 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_20 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_21 : Ref sig .tc := ⟨.hbm, 144, rfl⟩
abbrev main_v96 : Ref sig .tc := ⟨.hbm, 145, rfl⟩
abbrev main_v97 : Ref sig .tc := ⟨.hbm, 146, rfl⟩
abbrev main_cst_22 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_23 : Ref sig .tc := ⟨.hbm, 151, rfl⟩
abbrev main_cst_24 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_call4_v3 : Ref sig .tc := ⟨.hbm, 156, rfl⟩
abbrev main_call4_v4 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_cst_25 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_26 : Ref sig .tc := ⟨.hbm, 166, rfl⟩
abbrev main_cst_27 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_v108 : Ref sig .tc := ⟨.hbm, 173, rfl⟩

abbrev nD : Nat := 1
abbrev τ : Topo := Topo.v7x

variable {F : FTy → Type} [FloatOps F]

class Facts₀ : Prop where
  slices_S3x1024x1024_S1x1024x1024_0_0_0 : S3x1024x1024.Slices ![0, 0, 0] S1x1024x1024
  shapeCasts_S1x1024x1024_S1024x1024 : S1x1024x1024.ShapeCasts S1024x1024
  slices_S3x1024_S1x1024_0_0 : S3x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  slices_S3x1024x1024_S1x1024x1024_1_0_0 : S3x1024x1024.Slices ![1, 0, 0] S1x1024x1024
  slices_S3x1024_S1x1024_1_0 : S3x1024.Slices ![1, 0] S1x1024
  slices_S3x1024x1024_S1x1024x1024_2_0_0 : S3x1024x1024.Slices ![2, 0, 0] S1x1024x1024
  slices_S3x1024_S1x1024_2_0 : S3x1024.Slices ![2, 0] S1x1024
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.CellSpec.lean ====
/-
  One step of a gated recurrent cell on quantised gates, element by element over the extended reals.

  Every pre-activation goes through the same quantiser: scale by 2⁻⁸, round down, clamp to [-128, 127] (`cut`).
  The reset and update gates are `⌊127 · σ(cut s / 40)⌋` with σ the logistic function, the candidate is
  `⌊127 · tanh(cut(a + r · cut b) / 64)⌋`, and the new state is `cut(n · cut(127 − z) + h · z)`.
  The six projections are plain matrix products `∑ k, a (p, k) · w (g, k, q)` of the input and of the previous state
  with the three slices of each weight array, each with its bias row added.

  `nextState` is the whole result array as ONE function of the six argument arrays; both programs are shown to compute it.
-/
import Idealize.ShloMosaic.PureOps.Ideal
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.GruCell

/-- The quantiser's scale, the binary word of 2⁻⁸. -/
def q8 : EReal := Ideal.ofBits .f32 0x3B800000#32
/-- The clamp's lower end, the word of -128. -/
def lo : EReal := Ideal.ofBits .f32 0xC3000000#32
/-- The clamp's upper end and the gates' multiplier, the word of 127. -/
def hi : EReal := Ideal.ofBits .f32 0x42FE0000#32
/-- The sigmoid gates' divisor, the word of 40. -/
def d40 : EReal := Ideal.ofBits .f32 0x42200000#32
/-- The candidate's divisor, the word of 64. -/
def d64 : EReal := Ideal.ofBits .f32 0x42800000#32

/-- Clamp to [-128, 127]: the lower bound first, then the upper. -/
def clamp (v : EReal) : EReal := min hi (max lo v)

/-- Round down to an integer (the infinities fixed). -/
def fl (v : EReal) : EReal := Ideal.liftRound Int.floor v

/-- The quantiser: scale by 2⁻⁸, round down, clamp. -/
def cut (v : EReal) : EReal := clamp (fl (v * q8))

/-- A sigmoid gate of a pre-activation `s`: `⌊127 · σ(cut s / 40)⌋`. -/
def gate (s : EReal) : EReal := fl (hi * Ideal.logistic (Ideal.div (cut s) d40))

/-- The candidate of a pre-activation `s`: `⌊127 · tanh(cut s / 64)⌋`. -/
def cand (s : EReal) : EReal := fl (hi * Ideal.tanh (Ideal.div (cut s) d64))

/-- The new state from the reset gate's pre-activation `s0`, the update gate's `s1`, the candidate's input part `a2`
    and state part `b2`, and the previous state's element `h`. -/
def step (s0 s1 a2 b2 h : EReal) : EReal :=
  cut (cand (a2 + gate s0 * cut b2) * cut (hi - gate s1) + h * gate s1)

/-- The logistic function written out with the word of one: `1 / (1 + e^(-v))`. -/
theorem logistic_expanded (v : EReal) :
    Ideal.div (Ideal.ofBits .f32 0x3F800000#32) (Ideal.ofBits .f32 0x3F800000#32 + Ideal.exp (-v)) = Ideal.logistic v := by
  rw [Ideal.ofBits_one_f32]; rfl

/-- A sigmoid gate with the logistic function written out. -/
theorem gate_expanded (s : EReal) :
    gate s = fl (hi * Ideal.div (Ideal.ofBits .f32 0x3F800000#32) (Ideal.ofBits .f32 0x3F800000#32 + Ideal.exp (-(Ideal.div (cut s) d40)))) := by
  unfold gate; rw [logistic_expanded]

/-- A sum of four terms grouped from the left is the sum of its two halves. -/
theorem add4_assoc (a b c d : EReal) : a + b + c + d = (a + b) + (c + d) := by
  rw [add_assoc (a + b) c d]

abbrev SA : Shape := ⟨2, ![4096, 1024]⟩
abbrev SW : Shape := ⟨3, ![3, 1024, 1024]⟩
abbrev SB : Shape := ⟨2, ![3, 1024]⟩

/-- Row `p` of `a` against column `q` of slice `g` of `w`. -/
def proj (a : SA.Idx → EReal) (w : SW.Idx → EReal) (g : Fin 3) (p : Fin 4096) (q : Fin 1024) : EReal :=
  ∑ k : Fin 1024, a (ix2 p k) * w (ix3 g k q)

/-- Element `(p, q)` of the new state. -/
def nextAt (x h : SA.Idx → EReal) (wi wh : SW.Idx → EReal) (bi bh : SB.Idx → EReal) (p : Fin 4096) (q : Fin 1024) : EReal :=
  step ((proj x wi 0 p q + bi (ix2 0 q)) + (proj h wh 0 p q + bh (ix2 0 q)))
       ((proj x wi 1 p q + bi (ix2 1 q)) + (proj h wh 1 p q + bh (ix2 1 q)))
       (proj x wi 2 p q + bi (ix2 2 q)) (proj h wh 2 p q + bh (ix2 2 q)) (h (ix2 p q))

/-- The new state, the whole array. -/
def nextState (x h : SA.Idx → EReal) (wi wh : SW.Idx → EReal) (bi bh : SB.Idx → EReal) : SA.Idx → EReal :=
  fun i => nextAt x h wi wh bi bh (i 0) (i 1)

theorem nextState_ix2 (x h : SA.Idx → EReal) (wi wh : SW.Idx → EReal) (bi bh : SB.Idx → EReal) (p : Fin 4096) (q : Fin 1024) :
    nextState x h wi wh bi bh (ix2 p q) = nextAt x h wi wh bi bh p q := rfl

end Cert.GruCell

end
-- ==== Proof.KernelPayload.lean ====
/-
  What the kernel's body stores, element by element, at the ideal values.

  The body's one store writes a 256 × 1024 block computed from the loaded blocks of the input `X` and of the previous state
  `H`, the three slices of each weight array (already re-laid as 1024 × 1024 matrices) and the three rows of each bias
  array (already re-laid as vectors of 1024). A change of float format is the identity on the extended reals, each
  `tpu.matmul` into a zero accumulator is the plain sum `∑ k, A (p, k) · B (k, q)`, and a bias row broadcast over the
  256 rows reads its column. So the stored element `(p, q)` is the cell's `step` of the four pre-activations — the two
  sigmoid gates' sums grouped from the left here, regrouped into halves by associativity of `+` on the extended reals.
-/
import proofs.«165402_j80032420593692_1_alg».proof.Proof.Gen.KernelIdeal.Skeleton
import proofs.«165402_j80032420593692_1_alg».proof.Proof.LibPlainMatmul
import proofs.«165402_j80032420593692_1_alg».proof.Proof.CellSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Cert.GruCell

namespace Cert.KernelIdeal.Payload

open Cert.KernelIdeal Cert.KernelIdeal.Gen

/-! ## The matrix product's index maps: rows of the left operand, columns of the right, one contracted axis -/

theorem lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Row `p` of `A` against column `q` of `B`. -/
def rowCol (A : S256x1024.Idx → EReal) (B : S1024x1024.Idx → EReal) (p : Fin 256) (q : Fin 1024) : EReal :=
  ∑ k : Fin 1024, A (ix2 p k) * B (ix2 k q)

/-- The body's matrix product into the zero splat, read at `(p, q)`. -/
theorem mm_apply (A : FVec Ideal S256x1024 .bf16) (B : FVec Ideal S1024x1024 .bf16) (p : Fin 256) (q : Fin 1024) :
    FloatOps.matmul dot_S256x1024_S1024x1024_S256x1024_1_0_0_1_n_n none A B (constant (F := Ideal) S256x1024 .f32 0x00000000#32) (ix2 p q) = rowCol A B p q :=
  Cert.LibPlainMatmul.matmul_zero_apply dot_S256x1024_S1024x1024_S256x1024_1_0_0_1_n_n none rfl rfl lhs_0 lhs_1 rhs_0 rhs_1 A B p q

/-- A bias vector viewed as one row and broadcast over the block's rows reads its column. -/
theorem bias_apply (b : FVec Ideal S1024 .f32) (p : Fin 256) (q : Fin 1024) :
    broadcastTo S256x1024 (shapeCast S1x1024 b shapeCasts_S1024_S1x1024) broadcasts_S1x1024_S256x1024 (ix2 p q) = b (ix1 q) := by
  refine (broadcastTo_apply _ broadcasts_S1x1024_S256x1024 (ix2 p q) (ix2 (0 : Fin 1) q) (fun a => ?_)).trans ?_
  · match a with
    | ⟨0, _⟩ => show 0 = if (1 : Nat) = 1 then 0 else _; rw [if_pos rfl]
    | ⟨1, _⟩ => show q.val = if (1024 : Nat) = 1 then 0 else q.val; rw [if_neg (by decide)]
  · exact shapeCast_apply b shapeCasts_S1024_S1x1024 (ix2 (0 : Fin 1) q) (ix1 q)
      (by rw [Shape.rowMajor_val_one, Shape.rowMajor_val_two]; show q.val = 0 * 1024 + q.val; omega)

/-! ## The three computed values and the stored one -/

/-- The reset gate: `⌊127 · σ(cut s / 40)⌋` of the pre-activation grouped from the left. -/
theorem reset_apply (xb hb : FVec Ideal S256x1024 .bf16) (wi wh : FVec Ideal S1024x1024 .bf16) (bi bh : FVec Ideal S1024 .f32)
    (p : Fin 256) (q : Fin 1024) :
    k0_pay16 xb hb wi wh bi bh (ix2 p q) = gate (rowCol xb wi p q + bi (ix1 q) + rowCol hb wh p q + bh (ix1 q)) := by
  rw [← mm_apply xb wi p q, ← mm_apply hb wh p q, ← bias_apply bi p q, ← bias_apply bh p q]
  rfl

/-- The update gate before its rounding: `127 · σ(cut s / 40)`. -/
theorem update_apply (xb hb : FVec Ideal S256x1024 .bf16) (wi wh : FVec Ideal S1024x1024 .bf16) (bi bh : FVec Ideal S1024 .f32)
    (p : Fin 256) (q : Fin 1024) :
    k0_pay17 xb hb wi wh bi bh (ix2 p q)
      = hi * Ideal.logistic (Ideal.div (cut (rowCol xb wi p q + bi (ix1 q) + rowCol hb wh p q + bh (ix1 q))) d40) := by
  rw [← mm_apply xb wi p q, ← mm_apply hb wh p q, ← bias_apply bi p q, ← bias_apply bh p q]
  rfl

/-- The new state before its last rounding and clamp, from the reset gate `r` and the unrounded update gate `zu`. -/
theorem mix_apply (h : Vec Ideal S256x1024 .f32) (xb hb : FVec Ideal S256x1024 .bf16) (wi wh : FVec Ideal S1024x1024 .bf16)
    (bi bh : FVec Ideal S1024 .f32) (r zu : FVec Ideal S256x1024 .f32) (p : Fin 256) (q : Fin 1024) :
    k0_pay18 h xb hb wi wh bi bh r zu (ix2 p q)
      = (cand (rowCol xb wi p q + bi (ix1 q) + r (ix2 p q) * cut (rowCol hb wh p q + bh (ix1 q))) * cut (hi - fl (zu (ix2 p q)))
          + h (ix2 p q) * fl (zu (ix2 p q))) * q8 := by
  rw [← mm_apply xb wi p q, ← mm_apply hb wh p q, ← bias_apply bi p q, ← bias_apply bh p q]
  rfl

/-- The last rounding and clamp. -/
theorem store_apply (v : FVec Ideal S256x1024 .f32) (i : S256x1024.Idx) : k0_pay1 v i = clamp (fl (v i)) := rfl

/-- THE STORED ELEMENT `(p, q)`: the cell's step of the block's row `p` of `X` and `H` against column `q` of the six matrices,
    with the six bias entries of column `q` and the previous state's element. -/
theorem stored_apply (X H : Vec Ideal S256x1024 .f32) (wi0 wi1 wi2 wh0 wh1 wh2 : FVec Ideal S1024x1024 .bf16)
    (bi0 bi1 bi2 bh0 bh1 bh2 : FVec Ideal S1024 .f32) (p : Fin 256) (q : Fin 1024) :
    k0_pay1 (k0_pay18 H (k0_pay2 X) (k0_pay3 H) wi2 wh2 bi2 bh2
        (k0_pay16 (k0_pay2 X) (k0_pay3 H) wi0 wh0 bi0 bh0) (k0_pay17 (k0_pay2 X) (k0_pay3 H) wi1 wh1 bi1 bh1)) (ix2 p q)
      = step ((rowCol X wi0 p q + bi0 (ix1 q)) + (rowCol H wh0 p q + bh0 (ix1 q)))
             ((rowCol X wi1 p q + bi1 (ix1 q)) + (rowCol H wh1 p q + bh1 (ix1 q)))
             (rowCol X wi2 p q + bi2 (ix1 q)) (rowCol H wh2 p q + bh2 (ix1 q)) (H (ix2 p q)) := by
  rw [store_apply, mix_apply, reset_apply, update_apply, add4_assoc, add4_assoc]
  rfl

end Cert.KernelIdeal.Payload

end
-- ==== Proof.KernelBlocks.lean ====
/-
  From the kernel's blocks to its result array, at the ideal values.

  The grid has 16 points; point `t` stages rows `256 t … 256 t + 255` of the input and of the previous state, the whole of
  both weight arrays (cast to the narrower float format on the host beforehand, which is the identity on the extended reals)
  and of both bias arrays, and writes back rows `256 t … 256 t + 255` of the result. The body slices the weights and biases
  by their leading index. So the block point `t` writes back is block `t` of `nextState` of the argument arrays, the 16
  blocks tile the array, and the array ends holding `nextState`.
-/
import proofs.«165402_j80032420593692_1_alg».proof.Proof.Gen.KernelIdeal.Value
import proofs.«165402_j80032420593692_1_alg».proof.Proof.KernelPayload
import proofs.«165402_j80032420593692_1_alg».proof.Proof.CellSpec
import Idealize.ShloMosaic.Lib.StableHlo.Run

set_option maxRecDepth 16384

noncomputable section

open scoped BigOperators
open Idealize.ShloMosaic Idealize.ShloMosaic.TcCoe Idealize.SL.Sem Idealize.ShloMosaic.ValueIdx Cert.GruCell
open Idealize.ShloMosaic.Pipeline (Dat)

namespace Cert.KernelIdeal.Blocks

open Cert.KernelIdeal Cert.KernelIdeal.Gen Cert.KernelIdeal.Payload

/-! ## The body's slices of the staged weight and bias arrays -/

/-- Slice `g` of a staged weight array, viewed as a matrix, at `(k, q)` is the array at `(g, k, q)`. -/
theorem wslice (W : Vec Ideal S3x1024x1024 .bf16) (g : Fin 3) (off : Fin 3 → Nat) (hoff : off = ![g.val, 0, 0])
    (inb : ∀ a, off a + S1x1024x1024.size a ≤ S3x1024x1024.size a) (k q : Fin 1024) :
    shapeCast S1024x1024 (View.ld W (Rect.unit (s := S3x1024x1024) off S1x1024x1024.size inb)) shapeCasts_S1x1024x1024_S1024x1024 (ix2 k q)
      = W (ix3 g k q) := by
  subst hoff
  refine (shapeCast_apply _ shapeCasts_S1x1024x1024_S1024x1024 (ix2 k q) (ix3 (0 : Fin 1) k q) ?_).trans ?_
  · rw [Shape.rowMajor_val_three, Shape.rowMajor_val_two]
    show (0 * 1024 + k.val) * 1024 + q.val = k.val * 1024 + q.val
    omega
  · show W _ = W _
    congr 1; funext a; apply Fin.ext
    match a with
    | ⟨0, _⟩ => show g.val + 1 * 0 = g.val; omega
    | ⟨1, _⟩ => show 0 + 1 * k.val = k.val; omega
    | ⟨2, _⟩ => show 0 + 1 * q.val = q.val; omega

/-- Row `g` of a staged bias array, viewed as a vector, at `q` is the array at `(g, q)`. -/
theorem bslice (B : Vec Ideal S3x1024 .f32) (g : Fin 3) (off : Fin 2 → Nat) (hoff : off = ![g.val, 0])
    (inb : ∀ a, off a + S1x1024.size a ≤ S3x1024.size a) (q : Fin 1024) :
    shapeCast S1024 (View.ld B (Rect.unit (s := S3x1024) off S1x1024.size inb)) shapeCasts_S1x1024_S1024 (ix1 q) = B (ix2 g q) := by
  subst hoff
  refine (shapeCast_apply _ shapeCasts_S1x1024_S1024 (ix1 q) (ix2 (0 : Fin 1) q) ?_).trans ?_
  · rw [Shape.rowMajor_val_two, Shape.rowMajor_val_one]
    show 0 * 1024 + q.val = q.val
    omega
  · show B _ = B _
    congr 1; funext a; apply Fin.ext
    match a with
    | ⟨0, _⟩ => show g.val + 1 * 0 = g.val; omega
    | ⟨1, _⟩ => show 0 + 1 * q.val = q.val; omega

/-- A block's row against a column of slice `g` of the staged weights is the array's row against that column of the
    weight array, when the block's row `p` is the array's row `r` and the staged weights are the weight array. -/
theorem rowCol_slice (X : Vec Ideal S256x1024 .f32) (W : Vec Ideal S3x1024x1024 .bf16) (x : SA.Idx → EReal) (w : SW.Idx → EReal)
    (g : Fin 3) (off : Fin 3 → Nat) (hoff : off = ![g.val, 0, 0]) (inb : ∀ a, off a + S1x1024x1024.size a ≤ S3x1024x1024.size a)
    (r : Fin 4096) (p : Fin 256) (q : Fin 1024) (hX : ∀ k : Fin 1024, X (ix2 p k) = x (ix2 r k)) (hW : ∀ i, W i = w i) :
    rowCol X (shapeCast S1024x1024 (View.ld W (Rect.unit (s := S3x1024x1024) off S1x1024x1024.size inb)) shapeCasts_S1x1024x1024_S1024x1024) p q
      = proj x w g r q := by
  unfold rowCol proj
  refine Finset.sum_congr rfl fun k _ => ?_
  rw [wslice W g off hoff inb k q, hX k, hW]

theorem hz : (![0, 0] : Fin 2 → Nat) = fun _ => 0 := funext fun a => by fin_cases a <;> rfl

/-- THE BLOCK THE BODY LEAVES at `(p, q)`, when the staged rows `p` of `X` and `H` are row `r` of the arrays `x` and `h`
    and the staged weights and biases are the arrays: element `(r, q)` of the new state. -/
theorem block_apply (x h : SA.Idx → EReal) (wi wh : SW.Idx → EReal) (bi bh : SB.Idx → EReal)
    (X H : Vec Ideal S256x1024 .f32) (Wi Wh : Vec Ideal S3x1024x1024 .bf16) (Bi Bh : Vec Ideal S3x1024 .f32)
    (r : Fin 4096) (p : Fin 256) (q : Fin 1024)
    (hX : ∀ k : Fin 1024, X (ix2 p k) = x (ix2 r k)) (hH : ∀ k : Fin 1024, H (ix2 p k) = h (ix2 r k))
    (hWi : ∀ i, Wi i = wi i) (hWh : ∀ i, Wh i = wh i) (hBi : ∀ i, Bi i = bi i) (hBh : ∀ i, Bh i = bh i) :
    out0_6 X H Wi Wh Bi Bh (ix2 p q) = nextAt x h wi wh bi bh r q := by
  unfold out0_6
  rw [View.canon_unit_zero hz]
  simp only [View.ld_unit_zero (S := S256x1024) hz]
  rw [stored_apply]
  unfold nextAt
  rw [show k0_pay4 (View.ld Wi r0_1) = shapeCast S1024x1024 (View.ld Wi r0_1) shapeCasts_S1x1024x1024_S1024x1024 from rfl,
    show k0_pay5 (View.ld Wi r0_2) = shapeCast S1024x1024 (View.ld Wi r0_2) shapeCasts_S1x1024x1024_S1024x1024 from rfl,
    show k0_pay6 (View.ld Wi r0_3) = shapeCast S1024x1024 (View.ld Wi r0_3) shapeCasts_S1x1024x1024_S1024x1024 from rfl,
    show k0_pay7 (View.ld Wh r0_1) = shapeCast S1024x1024 (View.ld Wh r0_1) shapeCasts_S1x1024x1024_S1024x1024 from rfl,
    show k0_pay8 (View.ld Wh r0_2) = shapeCast S1024x1024 (View.ld Wh r0_2) shapeCasts_S1x1024x1024_S1024x1024 from rfl,
    show k0_pay9 (View.ld Wh r0_3) = shapeCast S1024x1024 (View.ld Wh r0_3) shapeCasts_S1x1024x1024_S1024x1024 from rfl,
    rowCol_slice X Wi x wi 0 ![0, 0, 0] rfl _ r p q hX hWi, rowCol_slice X Wi x wi 1 ![1, 0, 0] rfl _ r p q hX hWi,
    rowCol_slice X Wi x wi 2 ![2, 0, 0] rfl _ r p q hX hWi, rowCol_slice H Wh h wh 0 ![0, 0, 0] rfl _ r p q hH hWh,
    rowCol_slice H Wh h wh 1 ![1, 0, 0] rfl _ r p q hH hWh, rowCol_slice H Wh h wh 2 ![2, 0, 0] rfl _ r p q hH hWh,
    show k0_pay10 (View.ld Bi r0_4) (ix1 q) = bi (ix2 0 q) from (bslice Bi 0 ![0, 0] rfl _ q).trans (hBi _),
    show k0_pay11 (View.ld Bi r0_5) (ix1 q) = bi (ix2 1 q) from (bslice Bi 1 ![1, 0] rfl _ q).trans (hBi _),
    show k0_pay12 (View.ld Bi r0_6) (ix1 q) = bi (ix2 2 q) from (bslice Bi 2 ![2, 0] rfl _ q).trans (hBi _),
    show k0_pay13 (View.ld Bh r0_4) (ix1 q) = bh (ix2 0 q) from (bslice Bh 0 ![0, 0] rfl _ q).trans (hBh _),
    show k0_pay14 (View.ld Bh r0_5) (ix1 q) = bh (ix2 1 q) from (bslice Bh 1 ![1, 0] rfl _ q).trans (hBh _),
    show k0_pay15 (View.ld Bh r0_6) (ix1 q) = bh (ix2 2 q) from (bslice Bh 2 ![2, 0] rfl _ q).trans (hBh _),
    hH q]

/-! ## The staged blocks, read off the argument arrays -/

variable (m : (ℓ : Loc nD τ sig) → Buf (Elt Ideal) ℓ) (ρ : Dev nD → PrngReg)

/-- The host's cast of the input weights to the narrower format leaves every element as it was. -/
theorem V_main_v0 (c : Dev nD) : (V m c main_v0 : S3x1024x1024.Idx → EReal) = m ((c : Thread nD τ).loc main_arg2) := by
  dsimp only [Gen.V, Gen.hostOps0]; after_results; rfl

/-- The same for the state weights. -/
theorem V_main_v1 (c : Dev nD) : (V m c main_v1 : S3x1024x1024.Idx → EReal) = m ((c : Thread nD τ).loc main_arg3) := by
  dsimp only [Gen.V, Gen.hostOps0]; after_results; rfl

/-- The printed index maps over the 16 grid points: the row windows sit at block row `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row `p` of the input's block at point `t` is row `256 t + p` of the input. -/
theorem xblk (c : Dev nD) (t : Fin cfg0.N) (p : Fin 256) (k : Fin 1024) (r : Fin 4096) (hr : r.val = 256 * t.val + p.val) :
    (iblk m c 0 t : Vec Ideal S256x1024 .f32) (ix2 p k) = m ((c : Thread nD τ).loc main_arg0) (ix2 r k) := by
  obtain ⟨e0, e1, -⟩ := idx_facts t
  unfold iblk
  rw [View.read_apply]
  show V m c main_arg0 _ = _
  rw [V_main_arg0]
  congr 1; funext a; apply Fin.ext
  match a with
  | ⟨0, _⟩ => show win0_0.index t (0 : Fin 2) * 256 + 1 * p.val = r.val; rw [e0, hr]; omega
  | ⟨1, _⟩ => show win0_0.index t (1 : Fin 2) * 1024 + 1 * k.val = k.val; rw [e1]; omega

/-- Row `p` of the previous state's block at point `t` is row `256 t + p` of the previous state. -/
theorem hblk (c : Dev nD) (t : Fin cfg0.N) (p : Fin 256) (k : Fin 1024) (r : Fin 4096) (hr : r.val = 256 * t.val + p.val) :
    (iblk m c 1 t : Vec Ideal S256x1024 .f32) (ix2 p k) = m ((c : Thread nD τ).loc main_arg1) (ix2 r k) := by
  obtain ⟨-, -, e0, e1, -⟩ := idx_facts t
  unfold iblk
  rw [View.read_apply]
  show V m c main_arg1 _ = _
  rw [V_main_arg1]
  congr 1; funext a; apply Fin.ext
  match a with
  | ⟨0, _⟩ => show win0_1.index t (0 : Fin 2) * 256 + 1 * p.val = r.val; rw [e0, hr]; omega
  | ⟨1, _⟩ => show win0_1.index t (1 : Fin 2) * 1024 + 1 * k.val = k.val; rw [e1]; omega

/-- The staged input weights at every point are the input weights. -/
theorem wiblk (c : Dev nD) (t : Fin cfg0.N) (i : S3x1024x1024.Idx) :
    (iblk m c 2 t : Vec Ideal S3x1024x1024 .bf16) i = m ((c : Thread nD τ).loc main_arg2) i := by
  obtain ⟨-, -, -, -, -, -, e0, e1, e2, -⟩ := idx_facts t
  unfold iblk
  rw [View.read_apply]
  show V m c main_v0 _ = _
  refine (congrFun (V_main_v0 m c) _).trans ?_
  congr 1; funext a; apply Fin.ext
  match a with
  | ⟨0, _⟩ => show win0_2.index t (0 : Fin 3) * 3 + 1 * (i 0).val = (i 0).val; rw [e0]; omega
  | ⟨1, _⟩ => show win0_2.index t (1 : Fin 3) * 1024 + 1 * (i 1).val = (i 1).val; rw [e1]; omega
  | ⟨2, _⟩ => show win0_2.index t (2 : Fin 3) * 1024 + 1 * (i 2).val = (i 2).val; rw [e2]; omega

/-- The staged state weights at every point are the state weights. -/
theorem whblk (c : Dev nD) (t : Fin cfg0.N) (i : S3x1024x1024.Idx) :
    (iblk m c 3 t : Vec Ideal S3x1024x1024 .bf16) i = m ((c : Thread nD τ).loc main_arg3) i := by
  obtain ⟨-, -, -, -, -, -, -, -, -, e0, e1, e2, -⟩ := idx_facts t
  unfold iblk
  rw [View.read_apply]
  show V m c main_v1 _ = _
  refine (congrFun (V_main_v1 m c) _).trans ?_
  congr 1; funext a; apply Fin.ext
  match a with
  | ⟨0, _⟩ => show win0_3.index t (0 : Fin 3) * 3 + 1 * (i 0).val = (i 0).val; rw [e0]; omega
  | ⟨1, _⟩ => show win0_3.index t (1 : Fin 3) * 1024 + 1 * (i 1).val = (i 1).val; rw [e1]; omega
  | ⟨2, _⟩ => show win0_3.index t (2 : Fin 3) * 1024 + 1 * (i 2).val = (i 2).val; rw [e2]; omega

/-- The staged input biases at every point are the input biases. -/
theorem biblk (c : Dev nD) (t : Fin cfg0.N) (i : S3x1024.Idx) :
    (iblk m c 4 t : Vec Ideal S3x1024 .f32) i = m ((c : Thread nD τ).loc main_arg4) i := by
  obtain ⟨-, -, -, -, -, -, -, -, -, -, -, -, e0, e1, -⟩ := idx_facts t
  unfold iblk
  rw [View.read_apply]
  show V m c main_arg4 _ = _
  rw [V_main_arg4]
  congr 1; funext a; apply Fin.ext
  match a with
  | ⟨0, _⟩ => show win0_4.index t (0 : Fin 2) * 3 + 1 * (i 0).val = (i 0).val; rw [e0]; omega
  | ⟨1, _⟩ => show win0_4.index t (1 : Fin 2) * 1024 + 1 * (i 1).val = (i 1).val; rw [e1]; omega

/-- The staged state biases at every point are the state biases. -/
theorem bhblk (c : Dev nD) (t : Fin cfg0.N) (i : S3x1024.Idx) :
    (iblk m c 5 t : Vec Ideal S3x1024 .f32) i = m ((c : Thread nD τ).loc main_arg5) i := by
  obtain ⟨-, -, -, -, -, -, -, -, -, -, -, -, -, -, e0, e1⟩ := idx_facts t
  unfold iblk
  rw [View.read_apply]
  show V m c main_arg5 _ = _
  rw [V_main_arg5]
  congr 1; funext a; apply Fin.ext
  match a with
  | ⟨0, _⟩ => show win0_5.index t (0 : Fin 2) * 3 + 1 * (i 0).val = (i 0).val; rw [e0]; omega
  | ⟨1, _⟩ => show win0_5.index t (1 : Fin 2) * 1024 + 1 * (i 1).val = (i 1).val; rw [e1]; omega

/-! ## The result array -/

/-- The new state of the argument arrays as launched. -/
abbrev result (c : Dev nD) : S4096x1024.Idx → EReal :=
  nextState (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- WHAT POINT `t` WRITES BACK is block `t` of the new state. -/
theorem flushed_eq (c : Dev nD) (t : Fin cfg0.N) :
    (dats m 0 c).flushed 6 t = ((cfg0.win 6).blk t).view.read (Elt Ideal) (result m c) := by
  rw [Value.flushed6]
  funext j
  obtain ⟨p, q, rfl⟩ : ∃ (p : Fin 256) (q : Fin 1024), j = ix2 p q := ⟨j 0, j 1, eq_ix2 j⟩
  have ht : t.val < 16 := lt_of_lt_of_eq t.isLt (show cfg0.N = 16 from N_0)
  obtain ⟨-, -, -, -, e60, e61, -⟩ := idx_facts t
  have hr : 256 * t.val + p.val < 4096 := by have := p.isLt; omega
  have eout : ((cfg0.win 6).blk t).view.emb (ix2 p q) = ix2 (⟨256 * t.val + p.val, hr⟩ : Fin 4096) q := by
    funext a; apply Fin.ext
    match a with
    | ⟨0, _⟩ => show win0_6.index t (0 : Fin 2) * 256 + 1 * p.val = 256 * t.val + p.val; rw [e60]; omega
    | ⟨1, _⟩ => show win0_6.index t (1 : Fin 2) * 1024 + 1 * q.val = q.val; rw [e61]; omega
  show out0_6 (iblk m c 0 t) (iblk m c 1 t) (iblk m c 2 t) (iblk m c 3 t) (iblk m c 4 t) (iblk m c 5 t) (ix2 p q)
    = result m c (((cfg0.win 6).blk t).view.emb (ix2 p q))
  rw [eout]
  exact block_apply _ _ _ _ _ _ (iblk m c 0 t) (iblk m c 1 t) (iblk m c 2 t) (iblk m c 3 t) (iblk m c 4 t) (iblk m c 5 t)
    ⟨256 * t.val + p.val, hr⟩ p q (fun k => xblk m c t p k _ rfl) (fun k => hblk m c t p k _ rfl)
    (wiblk m c t) (whblk m c t) (biblk m c t) (bhblk m c t)

/-- Every index of the result array is in the block of the point its row falls in. -/
theorem covered (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  let t : Fin cfg0.N := ⟨(i 0).val / 256, by rw [hN]; omega⟩
  obtain ⟨-, -, -, -, e60, e61, -⟩ := idx_facts t
  have et : t.val = (i 0).val / 256 := rfl
  refine ⟨t, flush0_6 t, ?_⟩
  show i ∈ ((View.whole main_v2).slice (win0_6.rect t)).set
  rw [View.set_slice_whole, Rect.mem_set_unit]
  intro a
  match a with
  | ⟨0, _⟩ =>
    show win0_6.index t (0 : Fin 2) * 256 ≤ (i 0).val ∧ (i 0).val < win0_6.index t (0 : Fin 2) * 256 + 256
    rw [e60, et]; omega
  | ⟨1, _⟩ =>
    show win0_6.index t (1 : Fin 2) * 1024 ≤ (i 1).val ∧ (i 1).val < win0_6.index t (1 : Fin 2) * 1024 + 1024
    rw [e61]; omega

/-- THE RESULT ARRAY after the run is the new state. -/
theorem final (c : Dev nD) : (dats m 0 c).arrAt 6 cfg0.N = result m c :=
  (dats m 0 c).arrAt_eq_of_cover 6 (result m c) (fun t _ => flushed_eq m c t) covered

/-- The kernel's run, read: the result array at the new state of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.RefSpec.lean ====
/-
  The reference, element by element, at the ideal values.

  The reference slices each weight array by its leading index and reshapes the slice to a matrix, so its `dot_general`
  at `(r, q)` is row `r` of the left operand against column `q` of that slice; it slices, reshapes and broadcasts each
  bias row over the 4096 rows, so the broadcast at `(r, q)` is the bias at `(g, q)`; every other operation is pointwise,
  with the logistic function spelt `1 / (1 + e^(-v))`. Read at `(r, q)` its result is element `(r, q)` of `nextState`.
-/
import proofs.«165402_j80032420593692_1_alg».proof.Proof.Gen.ReferenceIdeal.Read
import proofs.«165402_j80032420593692_1_alg».proof.Proof.CellSpec

set_option maxRecDepth 16384

noncomputable section

open scoped BigOperators
open Idealize.ShloMosaic Idealize.ShloMosaic.ValueIdx Cert.GruCell

namespace Cert.ReferenceIdeal.RefSpec

open Cert.ReferenceIdeal Cert.ReferenceIdeal.Gen Cert.ReferenceIdeal.Read

/-! ## Where the layout operations read -/

/-- A sum whose left reads are row `r` of `a` and whose right reads are column `q` of slice `g` of `w`. -/
theorem proj_of_reads (a : SA.Idx → EReal) (w : SW.Idx → EReal) (g : Fin 3) (r : Fin 4096) (q : Fin 1024)
    (li : Fin 1024 → SA.Idx) (ri : Fin 1024 → SW.Idx) (hl : ∀ k, li k = ix2 r k) (hr : ∀ k, ri k = ix3 g k q) :
    ∑ k : Fin 1024, a (li k) * w (ri k) = proj a w g r q := by
  unfold proj
  exact Finset.sum_congr rfl fun k _ => by rw [hl k, hr k]

/-- The left operand of a product is read along row `r`. -/
theorem row_idx (r : Fin 4096) (q k : Fin 1024) : lidx_main_v2 (ix2 r q) k = ix2 r k :=
  funext fun a => Fin.ext (by match a with | ⟨0, _⟩ => rfl | ⟨1, _⟩ => rfl)

/-- The right operand of a product with slice 0, through the reshape and the slice, is read at `(0, k, q)`. -/
theorem slice0_idx (r : Fin 4096) (q k : Fin 1024) : idx_main_v0 (idx_main_v1 (ridx_main_v2 (ix2 r q) k)) = ix3 0 k q :=
  funext fun a => Fin.ext (by
    have hk := k.isLt; have hq := q.isLt
    match a with
    | ⟨0, _⟩ => rfl
    | ⟨1, _⟩ => show (k.val * 1024 + q.val) / 1024 % 1024 = k.val; omega
    | ⟨2, _⟩ => show (k.val * 1024 + q.val) % 1024 = q.val; omega)

/-- With slice 1: at `(1, k, q)`. -/
theorem slice1_idx (r : Fin 4096) (q k : Fin 1024) : idx_main_v32 (idx_main_v33 (ridx_main_v34 (ix2 r q) k)) = ix3 1 k q :=
  funext fun a => Fin.ext (by
    have hk := k.isLt; have hq := q.isLt
    match a with
    | ⟨0, _⟩ => rfl
    | ⟨1, _⟩ => show (k.val * 1024 + q.val) / 1024 % 1024 = k.val; omega
    | ⟨2, _⟩ => show (k.val * 1024 + q.val) % 1024 = q.val; omega)

/-- With slice 2: at `(2, k, q)`. -/
theorem slice2_idx (r : Fin 4096) (q k : Fin 1024) : idx_main_v64 (idx_main_v65 (ridx_main_v66 (ix2 r q) k)) = ix3 2 k q :=
  funext fun a => Fin.ext (by
    have hk := k.isLt; have hq := q.isLt
    match a with
    | ⟨0, _⟩ => rfl
    | ⟨1, _⟩ => show (k.val * 1024 + q.val) / 1024 % 1024 = k.val; omega
    | ⟨2, _⟩ => show (k.val * 1024 + q.val) % 1024 = q.val; omega)

/-- Bias row 0 broadcast over the rows, through the two broadcasts, the reshape and the slice, is read at `(0, q)`. -/
theorem bias0_idx (r : Fin 4096) (q : Fin 1024) : idx_main_v3 (idx_main_v4 (idx_main_v5 (idx_main_v6 (ix2 r q)))) = ix2 0 q :=
  funext fun a => Fin.ext (by
    have hq := q.isLt
    match a with
    | ⟨0, _⟩ => rfl
    | ⟨1, _⟩ => show q.val % 1024 = q.val; omega)

/-- Bias row 1: at `(1, q)`. -/
theorem bias1_idx (r : Fin 4096) (q : Fin 1024) : idx_main_v35 (idx_main_v36 (idx_main_v37 (idx_main_v38 (ix2 r q)))) = ix2 1 q :=
  funext fun a => Fin.ext (by
    have hq := q.isLt
    match a with
    | ⟨0, _⟩ => rfl
    | ⟨1, _⟩ => show q.val % 1024 = q.val; omega)

/-- Bias row 2: at `(2, q)`. -/
theorem bias2_idx (r : Fin 4096) (q : Fin 1024) : idx_main_v67 (idx_main_v68 (idx_main_v69 (idx_main_v70 (ix2 r q)))) = ix2 2 q :=
  funext fun a => Fin.ext (by
    have hq := q.isLt
    match a with
    | ⟨0, _⟩ => rfl
    | ⟨1, _⟩ => show q.val % 1024 = q.val; omega)

/-! ## The six projections and the six bias rows -/

variable (x0 x1 : (⟨S4096x1024, .f32⟩ : BufTy).Contents (Elt Ideal)) (x2 x3 : (⟨S3x1024x1024, .f32⟩ : BufTy).Contents (Elt Ideal))
  (x4 x5 : (⟨S3x1024, .f32⟩ : BufTy).Contents (Elt Ideal)) (r : Fin 4096) (q : Fin 1024)

theorem xw0 : val_main_v2 (F := Ideal) x0 x2 (ix2 r q) = proj x0 x2 0 r q := by
  rw [val_main_v2_apply]
  simp only [val_main_v1_apply, val_main_v0_apply]
  exact proj_of_reads x0 x2 0 r q _ _ (row_idx r q) (slice0_idx r q)

theorem xw1 : val_main_v34 (F := Ideal) x0 x2 (ix2 r q) = proj x0 x2 1 r q := by
  rw [val_main_v34_apply]
  simp only [val_main_v33_apply, val_main_v32_apply]
  exact proj_of_reads x0 x2 1 r q _ _ (row_idx r q) (slice1_idx r q)

theorem xw2 : val_main_v66 (F := Ideal) x0 x2 (ix2 r q) = proj x0 x2 2 r q := by
  rw [val_main_v66_apply]
  simp only [val_main_v65_apply, val_main_v64_apply]
  exact proj_of_reads x0 x2 2 r q _ _ (row_idx r q) (slice2_idx r q)

theorem hw0 : val_main_v10 (F := Ideal) x1 x3 (ix2 r q) = proj x1 x3 0 r q := by
  rw [val_main_v10_apply]
  simp only [val_main_v9_apply, val_main_v8_apply]
  exact proj_of_reads x1 x3 0 r q _ _ (row_idx r q) (slice0_idx r q)

theorem hw1 : val_main_v42 (F := Ideal) x1 x3 (ix2 r q) = proj x1 x3 1 r q := by
  rw [val_main_v42_apply]
  simp only [val_main_v41_apply, val_main_v40_apply]
  exact proj_of_reads x1 x3 1 r q _ _ (row_idx r q) (slice1_idx r q)

theorem hw2 : val_main_v74 (F := Ideal) x1 x3 (ix2 r q) = proj x1 x3 2 r q := by
  rw [val_main_v74_apply]
  simp only [val_main_v73_apply, val_main_v72_apply]
  exact proj_of_reads x1 x3 2 r q _ _ (row_idx r q) (slice2_idx r q)

theorem bi0 : val_main_v6 (F := Ideal) x4 (ix2 r q) = x4 (ix2 0 q) := by
  rw [val_main_v6_apply, val_main_v5_apply, val_main_v4_apply, val_main_v3_apply]
  exact congrArg x4 (bias0_idx r q)

theorem bi1 : val_main_v38 (F := Ideal) x4 (ix2 r q) = x4 (ix2 1 q) := by
  rw [val_main_v38_apply, val_main_v37_apply, val_main_v36_apply, val_main_v35_apply]
  exact congrArg x4 (bias1_idx r q)

theorem bi2 : val_main_v70 (F := Ideal) x4 (ix2 r q) = x4 (ix2 2 q) := by
  rw [val_main_v70_apply, val_main_v69_apply, val_main_v68_apply, val_main_v67_apply]
  exact congrArg x4 (bias2_idx r q)

theorem bh0 : val_main_v14 (F := Ideal) x5 (ix2 r q) = x5 (ix2 0 q) := by
  rw [val_main_v14_apply, val_main_v13_apply, val_main_v12_apply, val_main_v11_apply]
  exact congrArg x5 (bias0_idx r q)

theorem bh1 : val_main_v46 (F := Ideal) x5 (ix2 r q) = x5 (ix2 1 q) := by
  rw [val_main_v46_apply, val_main_v45_apply, val_main_v44_apply, val_main_v43_apply]
  exact congrArg x5 (bias1_idx r q)

theorem bh2 : val_main_v78 (F := Ideal) x5 (ix2 r q) = x5 (ix2 2 q) := by
  rw [val_main_v78_apply, val_main_v77_apply, val_main_v76_apply, val_main_v75_apply]
  exact congrArg x5 (bias2_idx r q)

/-! ## The result -/

/-- THE REFERENCE'S RESULT at `(r, q)` is element `(r, q)` of the new state: its pointwise operations are the cell's,
    one for one, over the six projections, the six bias entries and the previous state's element. -/
theorem ref_apply : val_main_v108 (F := Ideal) x0 x1 x2 x3 x4 x5 (ix2 r q) = nextAt x0 x1 x2 x3 x4 x5 r q := by
  unfold nextAt step
  rw [gate_expanded, gate_expanded]
  rw [← xw0 x0 x2 r q, ← xw1 x0 x2 r q, ← xw2 x0 x2 r q, ← hw0 x1 x3 r q, ← hw1 x1 x3 r q, ← hw2 x1 x3 r q,
    ← bi0 x4 r q, ← bi1 x4 r q, ← bi2 x4 r q, ← bh0 x5 r q, ← bh1 x5 r q, ← bh2 x5 r q]
  rfl

/-- The reference's result array is the new state of its arguments. -/
theorem ref_eq : val_main_v108 (F := Ideal) x0 x1 x2 x3 x4 x5 = nextState x0 x1 x2 x3 x4 x5 :=
  funext fun i => by
    obtain ⟨r, q, rfl⟩ : ∃ (r : Fin 4096) (q : Fin 1024), i = ix2 r q := ⟨i 0, i 1, eq_ix2 i⟩
    exact ref_apply x0 x1 x2 x3 x4 x5 r q

end Cert.ReferenceIdeal.RefSpec

end
-- ==== Proof.lean ====
/- The proof of `Cert.Claim` (proofs.«165402_j80032420593692_1_alg».proof.Defs): one step of a gated recurrent cell with quantised gates, a Pallas kernel over 16
   row blocks against its jnp reference, equal over the extended reals.

   Both programs compute, at every `(r, q)`, the cell's `step` (Proof/CellSpec.lean) of six projections
   `∑ k, a (r, k) · w (g, k, q)` of the input and of the previous state with the slices of the two weight arrays, the six
   bias entries of column `q`, and the previous state's element. The kernel casts to a narrower float format before its
   matrix products (the identity on the extended reals), accumulates each product into a zero block (the plain sum), applies
   `tpu.logistic` where the reference spells `1 / (1 + e^(-v))` (one function on the extended reals), and adds the four
   terms of the two sigmoid gates' pre-activations from the left where the reference adds two halves (associativity of `+`).
   No law used needs the inputs finite, so the precondition is never opened.

   Proof/KernelPayload.lean reads the kernel's stored block element by element, Proof/KernelBlocks.lean carries the blocks to
   the result array, Proof/RefSpec.lean reads the reference's result element by element; here the three frames, the empty
   idealization ledger and the equality of the two results are assembled. -/
import proofs.«165402_j80032420593692_1_alg».proof.Defs
import proofs.«165402_j80032420593692_1_alg».proof.Proof.Gen.Kernel
import proofs.«165402_j80032420593692_1_alg».proof.Proof.Gen.Kernel.Skeleton
import proofs.«165402_j80032420593692_1_alg».proof.Proof.Gen.Kernel.Launch
import proofs.«165402_j80032420593692_1_alg».proof.Proof.Gen.Kernel.Points
import proofs.«165402_j80032420593692_1_alg».proof.Proof.Gen.Kernel.Frame
import proofs.«165402_j80032420593692_1_alg».proof.Proof.Gen.KernelIdeal
import proofs.«165402_j80032420593692_1_alg».proof.Proof.Gen.KernelIdeal.Skeleton
import proofs.«165402_j80032420593692_1_alg».proof.Proof.Gen.KernelIdeal.Launch
import proofs.«165402_j80032420593692_1_alg».proof.Proof.Gen.KernelIdeal.Points
import proofs.«165402_j80032420593692_1_alg».proof.Proof.Gen.KernelIdeal.Frame
import proofs.«165402_j80032420593692_1_alg».proof.Proof.Gen.ReferenceIdeal
import proofs.«165402_j80032420593692_1_alg».proof.Proof.Gen.Pre_finite_inputs
import proofs.«165402_j80032420593692_1_alg».proof.Proof.Gen.KernelIdeal.Value
import proofs.«165402_j80032420593692_1_alg».proof.Proof.Gen.ReferenceIdeal.Run
import proofs.«165402_j80032420593692_1_alg».proof.Proof.Gen.ReferenceIdeal.Read
import proofs.«165402_j80032420593692_1_alg».proof.Proof.KernelBlocks
import proofs.«165402_j80032420593692_1_alg».proof.Proof.RefSpec
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the new state of its arguments (Proof/KernelBlocks.lean) and
    the reference's at the new state of its own (Proof/RefSpec.lean): one function of equal arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, Cert.ReferenceIdeal.RefSpec.ref_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
